-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x2816 : S_.BroadcastsInDim S8x1024x2816 (![] : Fin 0 → Fin S8x1024x2816.rank)
  reducesTo_S8x1024x2816_S_d0_1_2 : S8x1024x2816.ReducesTo [0, 1, 2] S_
  bcast_S_S8x2816x1024 : S_.BroadcastsInDim S8x2816x1024 (![] : Fin 0 → Fin S8x2816x1024.rank)
  reducesTo_S8x2816x1024_S_d0_1_2 : S8x2816x1024.ReducesTo [0, 1, 2] S_

variable [Facts]

def fn_part1 {F : FTy → Type} [FloatOps F] (main_v13 : IVec S_ 1) (main_v16 : IVec S8x2816x1024 1) : IVec S_ 1 :=
  let main_c_5 : IVec S_ 1 := constantI S_ 1 1#1
  let main_v17 : IVec S_ 1 := (fun x v => Host.reduce IntOp.andi x v reducesTo_S8x2816x1024_S_d0_1_2 h_S_) main_v16 main_c_5
  let main_v18 : IVec S_ 1 := andi main_v13 main_v17
  main_v18

def fn {F : FTy → Type} [FloatOps F] (main_arg0 : FVec F S8x2048x1024 .f32) (main_arg1 : FVec F S8x1024x2816 .f32) (main_arg2 : FVec F S8x1024x2816 .f32) (main_arg3 : FVec F S8x2816x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x2816 .f32 := Host.absf main_arg1
  let main_cst_0 : FVec F S_ .f32 := constant S_ .f32 0x7F800000#32
  let main_v5 : FVec F S8x1024x2816 .f32 := broadcastInDim S8x1024x2816 ![] bcast_S_S8x1024x2816 main_cst_0
  let main_v6 : IVec S8x1024x2816 1 := cmpf .olt main_v4 main_v5
  let main_c_1 : IVec S_ 1 := constantI S_ 1 1#1
  let main_v7 : IVec S_ 1 := (fun x v => Host.reduce IntOp.andi x v reducesTo_S8x1024x2816_S_d0_1_2 h_S_) main_v6 main_c_1
  let main_v8 : IVec S_ 1 := andi main_v3 main_v7
  let main_v9 : FVec F S8x1024x2816 .f32 := Host.absf main_arg2
  let main_cst_2 : FVec F S_ .f32 := constant S_ .f32 0x7F800000#32
  let main_v10 : FVec F S8x1024x2816 .f32 := broadcastInDim S8x1024x2816 ![] bcast_S_S8x1024x2816 main_cst_2
  let main_v11 : IVec S8x1024x2816 1 := cmpf .olt main_v9 main_v10
  let main_c_3 : IVec S_ 1 := constantI S_ 1 1#1
  let main_v12 : IVec S_ 1 := (fun x v => Host.reduce IntOp.andi x v reducesTo_S8x1024x2816_S_d0_1_2 h_S_) main_v11 main_c_3
  let main_v13 : IVec S_ 1 := andi main_v8 main_v12
  let main_v14 : FVec F S8x2816x1024 .f32 := Host.absf main_arg3
  let main_cst_4 : FVec F S_ .f32 := constant S_ .f32 0x7F800000#32
  let main_v15 : FVec F S8x2816x1024 .f32 := broadcastInDim S8x2816x1024 ![] bcast_S_S8x2816x1024 main_cst_4
  let main_v16 : IVec S8x2816x1024 1 := cmpf .olt main_v14 main_v15
  fn_part1 (F := F) main_v13 main_v16
-- ==== Kernel.lean ====
abbrev S8x2048x1024 : Shape := ⟨3, ![8, 2048, 1024]⟩
abbrev S8x1024x2816 : Shape := ⟨3, ![8, 1024, 2816]⟩
abbrev S8x2816x1024 : Shape := ⟨3, ![8, 2816, 1024]⟩
abbrev S1x512x1024 : Shape := ⟨3, ![1, 512, 1024]⟩
abbrev S1x1024x256 : Shape := ⟨3, ![1, 1024, 256]⟩
abbrev S1x256x1024 : Shape := ⟨3, ![1, 256, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 11], ![false, false, false]⟩

def k0_cond2 (i : grid0.Coords) : BitVec 1 :=
  let arg2 : BitVec 32 := BitVec.ofNat 32 (i 2).val
  let c10_i32 : BitVec 32 := 10#32
  let v27 : BitVec 1 := Scalar.cmpi .eq arg2 c10_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S512x1024_S1x512x1024 : S512x1024.ShapeCasts S1x512x1024
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x2816.size a
  hwx0_1 : ∀ i : grid0.Coords, EltTy.bits .f32 = 32 ∨ (Rect.block (s := S8x1024x2816) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S8x1024x2816.size a
  hwx0_2 : ∀ i : grid0.Coords, EltTy.bits .f32 = 32 ∨ (Rect.block (s := S8x1024x2816) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x2816x1024.size a
  hwx0_3 : ∀ i : grid0.Coords, EltTy.bits .f32 = 32 ∨ (Rect.block (s := S8x2816x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .f32 = 32 ∨ (Rect.block (s := S8x2048x1024) S1x512x1024.size (cc0_transform_4 i) (hinb0_4 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x2816 : Shape := ⟨3, ![8, 1024, 2816]⟩
abbrev S8x2816x1024 : Shape := ⟨3, ![8, 2816, 1024]⟩
abbrev S8x2048x2816 : Shape := ⟨3, ![8, 2048, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x2048x2816, .f32⟩
  | .hbm, ⟨5, _⟩ => ⟨S8x2048x2816, .f32⟩
  | .hbm, ⟨6, _⟩ => ⟨S8x2048x2816, .f32⟩
  | .hbm, ⟨7, _⟩ => ⟨S8x2048x2816, .f32⟩
  | .hbm, ⟨8, _⟩ => ⟨S_, .f32⟩
  | .hbm, ⟨9, _⟩ => ⟨S8x2048x2816, .f32⟩
  | .hbm, ⟨10, _⟩ => ⟨S8x2048x2816, .f32⟩
  | .hbm, ⟨11, _⟩ => ⟨S_, .f32⟩
  | .hbm, ⟨12, _⟩ => ⟨S8x2048x2816, .f32⟩
  | .hbm, ⟨13, _⟩ => ⟨S8x2048x2816, .f32⟩
  | .hbm, ⟨14, _⟩ => ⟨S8x2048x2816, .f32⟩
  | .hbm, ⟨15, _⟩ => ⟨S8x2048x2816, .f32⟩
  | .hbm, ⟨16, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x2816 : S_.BroadcastsInDim S8x2048x2816 (![] : Fin 0 → Fin S8x2048x2816.rank)
  dot_S8x2048x1024_S8x1024x2816_S8x2048x2816_2_1_1_2_0_0_wf : DotDims.WF S8x2048x1024 S8x1024x2816 S8x2048x2816 [2] [1] [1] [2] [0] [0]
  dot_S8x2048x2816_S8x2816x1024_S8x2048x1024_2_1_1_2_0_0_wf : DotDims.WF S8x2048x2816 S8x2816x1024 S8x2048x1024 [2] [1] [1] [2] [0] [0]

variable [Facts₀]

def dot_S8x2048x1024_S8x1024x2816_S8x2048x2816_2_1_1_2_0_0 : DotDims S8x2048x1024 S8x1024x2816 S8x2048x2816 where
  lhsContracting := [2]
  rhsContracting := [1]
  lhsNonContracting := [1]
  rhsNonContracting := [2]
  lhsBatch := [0]
  rhsBatch := [0]
  wf := dot_S8x2048x1024_S8x1024x2816_S8x2048x2816_2_1_1_2_0_0_wf
def dot_S8x2048x2816_S8x2816x1024_S8x2048x1024_2_1_1_2_0_0 : DotDims S8x2048x2816 S8x2816x1024 S8x2048x1024 where
  lhsContracting := [2]
  rhsContracting := [1]
  lhsNonContracting := [1]
  rhsNonContracting := [2]
  lhsBatch := [0]
  rhsBatch := [0]
  wf := dot_S8x2048x2816_S8x2816x1024_S8x2048x1024_2_1_1_2_0_0_wf

class Facts : Prop extends Facts₀ where

variable [Facts]
-- ==== Proof.KernelPieces.lean ====
/-
  What one grid step leaves behind, as values.

  The kernel walks the grid (expert, token tile, hidden tile) with the hidden tile innermost and keeps a 512 × 1024
  accumulator between steps. A step is in one of three cases. At the first hidden tile it stores zeros into the
  accumulator, reads them back and adds the tile's partial product: the accumulator ends at `step(tiles, 0)`. At a
  middle hidden tile it adds the partial product to what the step before left: `step(tiles, acc)`. At the last hidden
  tile it does the same and then copies the accumulator into the output tile: the output tile ends at
  `copy(step(tiles, acc))`. Here `step` is the body's one arithmetic term (`k0_pay2`), the zeros are `k0_pay1` and the
  copy is `k0_pay3`; the lemmas below say exactly this of the generated run's found pieces, for any float instance.
-/
import proofs.«101023_j32822140076135_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every load and store of the body starts at the origin of its buffer. -/
theorem origin2 : (![0, 0] : Fin 2 → Nat) = fun _ => 0 := funext fun a => by fin_cases a <;> rfl
theorem origin3 : (![0, 0, 0] : Fin 3 → Nat) = fun _ => 0 := funext fun a => by fin_cases a <;> rfl

/-- A middle hidden tile: the accumulator, found at `acc`, ends at the step's term over it. -/
theorem acc_middle (c : Dev nD) (i : grid0.Coords) (a3 : Memref sig .tc .vmem S1x512x1024 .f32) (h3 : a3.IsWhole) (a4 : Memref sig .tc .vmem S1x1024x256 .f32) (h4 : a4.IsWhole) (a5 : Memref sig .tc .vmem S1x1024x256 .f32) (h5 : a5.IsWhole) (a6 : Memref sig .tc .vmem S1x256x1024 .f32) (h6 : a6.IsWhole) (a7 : Memref sig .tc .vmem S1x512x1024 .f32) (h7 : a7.IsWhole) (a8 : Memref sig .tc .vmem S512x1024 .f32) (h8 : a8.IsWhole) (hc0 : ¬cond0_0 i) (hc1 : ¬cond0_1 i) (x0 : Vec F S1x512x1024 .f32) (x1 : Vec F S1x1024x256 .f32) (x2 : Vec F S1x1024x256 .f32) (x3 : Vec F S1x256x1024 .f32) (acc : Vec F S512x1024 .f32) :
    sout0_B_0 c i a3 h3 a4 h4 a5 h5 a6 h6 a7 h7 a8 h8 hc0 hc1 x0 x1 x2 x3 acc = k0_pay2 x0 x1 x2 x3 acc := by
  unfold sout0_B_0
  rw [View.read_writes_eq_canon _ _ _ (scover0_B_0 c i a3 h3 a4 h4 a5 h5 a6 h6 a7 h7 a8 h8 hc0 hc1 x0 x1 x2 x3 acc)]
  unfold kernelRun0_B
  dsimp only
  sl_unfold_words
  rw [View.canon_unit_zero origin2]
  simp only [View.readAt_eq_ld, h3.read_unread, h4.read_unread, h5.read_unread, h6.read_unread, h8.read_unread, View.readCov_unit_zero (S := S512x1024) _ origin2, View.ld_unit_zero (S := S1x512x1024) origin3, View.ld_unit_zero (S := S1x1024x256) origin3, View.ld_unit_zero (S := S1x256x1024) origin3, View.ld_unit_zero (S := S512x1024) origin2]

/-- The last hidden tile: the accumulator ends at the same term, -/
theorem acc_last (c : Dev nD) (i : grid0.Coords) (a3 : Memref sig .tc .vmem S1x512x1024 .f32) (h3 : a3.IsWhole) (a4 : Memref sig .tc .vmem S1x1024x256 .f32) (h4 : a4.IsWhole) (a5 : Memref sig .tc .vmem S1x1024x256 .f32) (h5 : a5.IsWhole) (a6 : Memref sig .tc .vmem S1x256x1024 .f32) (h6 : a6.IsWhole) (a7 : Memref sig .tc .vmem S1x512x1024 .f32) (h7 : a7.IsWhole) (a8 : Memref sig .tc .vmem S512x1024 .f32) (h8 : a8.IsWhole) (hc0 : ¬cond0_0 i) (hc1 : cond0_1 i) (x0 : Vec F S1x512x1024 .f32) (x1 : Vec F S1x1024x256 .f32) (x2 : Vec F S1x1024x256 .f32) (x3 : Vec F S1x256x1024 .f32) (acc : Vec F S512x1024 .f32) :
    sout0_C_0 c i a3 h3 a4 h4 a5 h5 a6 h6 a7 h7 a8 h8 hc0 hc1 x0 x1 x2 x3 acc = k0_pay2 x0 x1 x2 x3 acc := by
  unfold sout0_C_0
  rw [View.read_writes_eq_canon _ _ _ (scover0_C_0 c i a3 h3 a4 h4 a5 h5 a6 h6 a7 h7 a8 h8 hc0 hc1 x0 x1 x2 x3 acc)]
  unfold kernelRun0_C
  dsimp only
  sl_unfold_words
  rw [View.canon_unit_zero origin2]
  simp only [View.readAt_eq_ld, h3.read_unread, h4.read_unread, h5.read_unread, h6.read_unread, h8.read_unread, View.readCov_unit_zero (S := S512x1024) _ origin2, View.ld_unit_zero (S := S1x512x1024) origin3, View.ld_unit_zero (S := S1x1024x256) origin3, View.ld_unit_zero (S := S1x256x1024) origin3, View.ld_unit_zero (S := S512x1024) origin2]

/-- and the output tile at its copy (the body reads the accumulator back after storing it). -/
theorem out_last (c : Dev nD) (i : grid0.Coords) (a3 : Memref sig .tc .vmem S1x512x1024 .f32) (h3 : a3.IsWhole) (a4 : Memref sig .tc .vmem S1x1024x256 .f32) (h4 : a4.IsWhole) (a5 : Memref sig .tc .vmem S1x1024x256 .f32) (h5 : a5.IsWhole) (a6 : Memref sig .tc .vmem S1x256x1024 .f32) (h6 : a6.IsWhole) (a7 : Memref sig .tc .vmem S1x512x1024 .f32) (h7 : a7.IsWhole) (a8 : Memref sig .tc .vmem S512x1024 .f32) (h8 : a8.IsWhole) (hc0 : ¬cond0_0 i) (hc1 : cond0_1 i) (x0 : Vec F S1x512x1024 .f32) (x1 : Vec F S1x1024x256 .f32) (x2 : Vec F S1x1024x256 .f32) (x3 : Vec F S1x256x1024 .f32) (acc : Vec F S512x1024 .f32) :
    out0_C_4 c i a3 h3 a4 h4 a5 h5 a6 h6 a7 h7 a8 h8 hc0 hc1 x0 x1 x2 x3 acc = k0_pay3 (k0_pay2 x0 x1 x2 x3 acc) := by
  unfold out0_C_4
  rw [View.read_writes_eq_canon _ _ _ (cover0_C_4 c i a3 h3 a4 h4 a5 h5 a6 h6 a7 h7 a8 h8 hc0 hc1 x0 x1 x2 x3 acc)]
  unfold kernelRun0_C
  dsimp only
  sl_unfold_words
  rw [View.canon_unit_zero origin3]
  simp only [View.readAt_eq_ld, h3.read_unread, h4.read_unread, h5.read_unread, h6.read_unread, h8.read_unread, View.readCov_unit_zero (S := S512x1024) _ origin2, View.ld_unit_zero (S := S1x512x1024) origin3, View.ld_unit_zero (S := S1x1024x256) origin3, View.ld_unit_zero (S := S1x256x1024) origin3, View.ld_unit_zero (S := S512x1024) origin2]

/-- The first hidden tile: the zeros are stored, read back and stepped over; what the accumulator held before does
    not enter. -/
theorem acc_first (c : Dev nD) (i : grid0.Coords) (a3 : Memref sig .tc .vmem S1x512x1024 .f32) (h3 : a3.IsWhole) (a4 : Memref sig .tc .vmem S1x1024x256 .f32) (h4 : a4.IsWhole) (a5 : Memref sig .tc .vmem S1x1024x256 .f32) (h5 : a5.IsWhole) (a6 : Memref sig .tc .vmem S1x256x1024 .f32) (h6 : a6.IsWhole) (a7 : Memref sig .tc .vmem S1x512x1024 .f32) (h7 : a7.IsWhole) (a8 : Memref sig .tc .vmem S512x1024 .f32) (h8 : a8.IsWhole) (hc0 : cond0_0 i) (hc1 : ¬cond0_1 i) (x0 : Vec F S1x512x1024 .f32) (x1 : Vec F S1x1024x256 .f32) (x2 : Vec F S1x1024x256 .f32) (x3 : Vec F S1x256x1024 .f32) :
    sout0_A_0 c i a3 h3 a4 h4 a5 h5 a6 h6 a7 h7 a8 h8 hc0 hc1 x0 x1 x2 x3 = k0_pay2 x0 x1 x2 x3 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x1024) origin2]
  simp only [View.readAt_eq_ld, h3.read_unread, h4.read_unread, h5.read_unread, h6.read_unread, h8.read_unread, View.readCov_unit_zero (S := S512x1024) _ origin2, View.ld_unit_zero (S := S1x512x1024) origin3, View.ld_unit_zero (S := S1x1024x256) origin3, View.ld_unit_zero (S := S1x256x1024) origin3, View.ld_unit_zero (S := S512x1024) origin2]

end Cert.KernelIdeal.Pieces

end
-- ==== Proof.SwigluSpec.lean ====
/-
  The mathematics of the gated expert layer, with no program in sight.

  For each of the 8 experts e, each of its 2048 tokens c and each of the 1024 output features d the layer computes

      out[e, c, d] = Σ_{i < 2816} h[e, c, i] · w_down[e, i, d],
      h[e, c, i]   = (g · logistic g) · u,   g = Σ_{k < 1024} x[e, c, k] · w_gate[e, k, i],
                                              u = Σ_{k < 1024} x[e, c, k] · w_up[e, k, i],

  every sum and product taken on the extended reals. The same formula is stated twice: over the whole arrays
  (`out`), and over one tile of each array (`tileTerm`: 512 tokens, 256 hidden units), which is what one grid
  step of a tiled evaluation sees. The only law needed between the two is that a sum over 2816 = 11 · 256 hidden
  units is the sum, over the 11 hidden tiles, of the sums over each tile's 256 units (`sum_hidden_tiles`):
  re-association and commutation of addition, valid on the extended reals with no finiteness assumption.
-/
import Idealize.ShloMosaic.PureOps.Ideal
import Idealize.ShloMosaic.Lib.ValueIdx
import Mathlib.Algebra.BigOperators.Fin
import Mathlib.Logic.Equiv.Fin.Basic

noncomputable section

open scoped BigOperators
open Idealize.ShloMosaic Idealize.ShloMosaic.ValueIdx

namespace Cert.Swiglu

/-- The activations and the result: 8 experts × 2048 tokens × 1024 features. -/
abbrev SX : Shape := ⟨3, ![8, 2048, 1024]⟩
/-- The gate and up weights: 8 experts × 1024 features × 2816 hidden units. -/
abbrev SW : Shape := ⟨3, ![8, 1024, 2816]⟩
/-- The down weights: 8 experts × 2816 hidden units × 1024 features. -/
abbrev SD : Shape := ⟨3, ![8, 2816, 1024]⟩

/-- One entry of a projection to the hidden units: `Σ_k x[e, c, k] · w[e, k, i]`. -/
def proj (x : SX.Idx → EReal) (w : SW.Idx → EReal) (e : Fin 8) (c : Fin 2048) (i : Fin 2816) : EReal :=
  ∑ k : Fin 1024, x (ix3 e c k) * w (ix3 e k i)

/-- The gated hidden unit: `(g · logistic g) · u` of the gate and up projections. -/
def hidden (x : SX.Idx → EReal) (wg wu : SW.Idx → EReal) (e : Fin 8) (c : Fin 2048) (i : Fin 2816) : EReal :=
  proj x wg e c i * Ideal.logistic (proj x wg e c i) * proj x wu e c i

/-- Hidden unit `i`'s contribution to output feature `d`. -/
def term (x : SX.Idx → EReal) (wg wu : SW.Idx → EReal) (wd : SD.Idx → EReal) (e : Fin 8) (c : Fin 2048) (d : Fin 1024)
    (i : Fin 2816) : EReal :=
  hidden x wg wu e c i * wd (ix3 e i d)

/-- The layer: every output entry is the sum of its 2816 hidden units' contributions. -/
def out (x : SX.Idx → EReal) (wg wu : SW.Idx → EReal) (wd : SD.Idx → EReal) : SX.Idx → EReal :=
  fun o => ∑ i : Fin 2816, term x wg wu wd (o 0) (o 1) (o 2) i

/-! ## The same formula on one tile of each array -/

/-- A tile of the activations (one expert, 512 tokens), of the gate or up weights (one expert, 256 hidden units) and of
    the down weights (one expert, the same 256 hidden units). -/
abbrev TX : Shape := ⟨3, ![1, 512, 1024]⟩
abbrev TW : Shape := ⟨3, ![1, 1024, 256]⟩
abbrev TD : Shape := ⟨3, ![1, 256, 1024]⟩

/-- A projection entry inside a tile. -/
def tileProj (x : TX.Idx → EReal) (w : TW.Idx → EReal) (r : Fin 512) (j : Fin 256) : EReal :=
  ∑ k : Fin 1024, x (ix3 0 r k) * w (ix3 0 k j)

/-- Hidden unit `j` of the tile, and its contribution to feature `d` of token `r` of the tile. -/
def tileTerm (x : TX.Idx → EReal) (wg wu : TW.Idx → EReal) (wd : TD.Idx → EReal) (r : Fin 512) (d : Fin 1024)
    (j : Fin 256) : EReal :=
  tileProj x wg r j * Ideal.logistic (tileProj x wg r j) * tileProj x wu r j * wd (ix3 0 j d)

/-! ## Summing the hidden units tile by tile -/

/-- A sum over `B · W` consecutive positions is the sum over `B` runs of `W`. -/
theorem sum_runs {M : Type*} [AddCommMonoid M] (B W : ℕ) (F : Fin (B * W) → M) :
    ∑ i, F i = ∑ s : Fin B, ∑ j : Fin W, F (finProdFinEquiv (s, j)) := by
  rw [← Equiv.sum_comp finProdFinEquiv F, Fintype.sum_prod_type]

/-- The 2816 hidden units are 11 tiles of 256: unit `256 s + j` is unit `j` of tile `s`. -/
theorem sum_hidden_tiles (F : Fin 2816 → EReal) :
    ∑ i, F i = ∑ s : Fin 11, ∑ j : Fin 256, F ⟨256 * s.val + j.val, by have := s.isLt; have := j.isLt; omega⟩ :=
  (sum_runs 11 256 F).trans (Finset.sum_congr rfl fun s _ => Finset.sum_congr rfl fun j _ =>
    congrArg F (Fin.ext (by simp [finProdFinEquiv]; omega)))

end Cert.Swiglu

end
-- ==== Proof.KernelTile.lean ====
/-
  One grid step's arithmetic, read at an entry of the accumulator, over the extended reals.

  The step's term is `acc + (silu(x·Wg) ⊙ (x·Wu))·Wd` on a token tile `x` (512 × 1024) and hidden tiles `Wg`, `Wu`
  (1024 × 256) and `Wd` (256 × 1024), the three products into zero accumulators and the narrowing to bf16 the
  identity on extended reals. At entry `(r, d)` it is `acc[r, d]` plus the sum over the tile's 256 hidden units of the
  specification's `tileTerm`: each matrix product is the plain sum of products over its one contracted axis, and a
  tile's leading unit axis is dropped by a reshape that keeps `(r, k)` at `(0, r, k)`.
-/
import proofs.«101023_j32822140076135_1_alg».proof.Proof.Gen.KernelIdeal.Value
import proofs.«101023_j32822140076135_1_alg».proof.Proof.SwigluSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.Tile

open Cert.KernelIdeal Cert.KernelIdeal.Gen Cert.Swiglu

/-! ## The projections to the hidden tile: 512 × 1024 by 1024 × 256

The operand entries the product reads at result entry `(r, j)` and contraction position `k` are `(r, k)` and `(k, j)`. -/

theorem up_lhs_0 (i : S512x256.Idx) (q : dot_S512x1024_S1024x256_S512x256_1_0_0_1_n_n.contr.Idx) : (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem up_lhs_1 (i : S512x256.Idx) (q : dot_S512x1024_S1024x256_S512x256_1_0_0_1_n_n.contr.Idx) : (dot_S512x1024_S1024x256_S512x256_1_0_0_1_n_n.lhsIdx i q 1).val = (q ⟨0, by decide⟩).val :=
  dot_S512x1024_S1024x256_S512x256_1_0_0_1_n_n.lhsIdx_val_of_single rfl i q
theorem up_rhs_0 (i : S512x256.Idx) (q : dot_S512x1024_S1024x256_S512x256_1_0_0_1_n_n.contr.Idx) : (dot_S512x1024_S1024x256_S512x256_1_0_0_1_n_n.rhsIdx i q 0).val = (q ⟨0, by decide⟩).val :=
  dot_S512x1024_S1024x256_S512x256_1_0_0_1_n_n.rhsIdx_val_of_single rfl i q
theorem up_rhs_1 (i : S512x256.Idx) (q : dot_S512x1024_S1024x256_S512x256_1_0_0_1_n_n.contr.Idx) : (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- Into a zero accumulator the product at `(r, j)` is `Σ_k a[r, k] · b[k, j]`. -/
theorem up_apply (a : FVec Ideal S512x1024 .bf16) (b : FVec Ideal S1024x256 .bf16) (r : Fin 512) (j : Fin 256) :
    matmul dot_S512x1024_S1024x256_S512x256_1_0_0_1_n_n none a b (constant S512x256 .f32 0x00000000#32) (ix2 r j) = ∑ k : Fin 1024, a (ix2 r k) * b (ix2 k j) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r j) ((contrEquiv1 dot_S512x1024_S1024x256_S512x256_1_0_0_1_n_n 1024 rfl rfl).symm k) = ix2 r k := funext fun a => Fin.ext (by
    match a with
    | ⟨0, _⟩ => exact up_lhs_0 _ _
    | ⟨1, _⟩ => exact (up_lhs_1 _ _).trans hk)
  have er : dot_S512x1024_S1024x256_S512x256_1_0_0_1_n_n.rhsIdx (ix2 r j) ((contrEquiv1 dot_S512x1024_S1024x256_S512x256_1_0_0_1_n_n 1024 rfl rfl).symm k) = ix2 k j := funext fun a => Fin.ext (by
    match a with
    | ⟨0, _⟩ => exact (up_rhs_0 _ _).trans hk
    | ⟨1, _⟩ => exact up_rhs_1 _ _)
  rw [el, er]

/-! ## The projection back: 512 × 256 by 256 × 1024 -/

theorem down_lhs_0 (i : S512x1024.Idx) (q : dot_S512x256_S256x1024_S512x1024_1_0_0_1_n_n.contr.Idx) : (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem down_lhs_1 (i : S512x1024.Idx) (q : dot_S512x256_S256x1024_S512x1024_1_0_0_1_n_n.contr.Idx) : (dot_S512x256_S256x1024_S512x1024_1_0_0_1_n_n.lhsIdx i q 1).val = (q ⟨0, by decide⟩).val :=
  dot_S512x256_S256x1024_S512x1024_1_0_0_1_n_n.lhsIdx_val_of_single rfl i q
theorem down_rhs_0 (i : S512x1024.Idx) (q : dot_S512x256_S256x1024_S512x1024_1_0_0_1_n_n.contr.Idx) : (dot_S512x256_S256x1024_S512x1024_1_0_0_1_n_n.rhsIdx i q 0).val = (q ⟨0, by decide⟩).val :=
  dot_S512x256_S256x1024_S512x1024_1_0_0_1_n_n.rhsIdx_val_of_single rfl i q
theorem down_rhs_1 (i : S512x1024.Idx) (q : dot_S512x256_S256x1024_S512x1024_1_0_0_1_n_n.contr.Idx) : (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- Into a zero accumulator the product at `(r, d)` is `Σ_j a[r, j] · b[j, d]`. -/
theorem down_apply (a : FVec Ideal S512x256 .bf16) (b : FVec Ideal S256x1024 .bf16) (r : Fin 512) (j : Fin 1024) :
    matmul dot_S512x256_S256x1024_S512x1024_1_0_0_1_n_n none a b (constant S512x1024 .f32 0x00000000#32) (ix2 r j) = ∑ k : Fin 256, a (ix2 r k) * b (ix2 k j) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 r j) ((contrEquiv1 dot_S512x256_S256x1024_S512x1024_1_0_0_1_n_n 256 rfl rfl).symm k) = ix2 r k := funext fun a => Fin.ext (by
    match a with
    | ⟨0, _⟩ => exact down_lhs_0 _ _
    | ⟨1, _⟩ => exact (down_lhs_1 _ _).trans hk)
  have er : dot_S512x256_S256x1024_S512x1024_1_0_0_1_n_n.rhsIdx (ix2 r j) ((contrEquiv1 dot_S512x256_S256x1024_S512x1024_1_0_0_1_n_n 256 rfl rfl).symm k) = ix2 k j := funext fun a => Fin.ext (by
    match a with
    | ⟨0, _⟩ => exact (down_rhs_0 _ _).trans hk
    | ⟨1, _⟩ => exact down_rhs_1 _ _)
  rw [el, er]

/-! ## The step, the zeros and the copy at an entry -/

/-- The step adds to the accumulator's entry the tile's 256 hidden units' contributions. -/
theorem step_apply (x0 : Vec Ideal S1x512x1024 .f32) (x1 x2 : Vec Ideal S1x1024x256 .f32) (x3 : Vec Ideal S1x256x1024 .f32)
    (acc : Vec Ideal S512x1024 .f32) (r : Fin 512) (d : Fin 1024) :
    k0_pay2 (F := Ideal) x0 x1 x2 x3 acc (ix2 r d) = acc (ix2 r d) + ∑ j : Fin 256, tileTerm x0 x1 x2 x3 r d j := by
  unfold k0_pay2
  rw [shapeCast_self, addf_apply, down_apply]
  refine congrArg (acc (ix2 r d) + ·) (Finset.sum_congr rfl fun j _ => ?_)
  simp only [truncf_apply, mulf_apply, logistic, up_apply, shapeCast_1ab_ab_apply, Ideal.logistic_def]
  unfold tileTerm tileProj
  rfl

/-- The accumulator's reset value is zero at every entry. -/
theorem zeros_apply (y : S512x1024.Idx) : k0_pay1 (F := Ideal) y = 0 := by
  unfold k0_pay1
  rw [shapeCast_self]
  exact Ideal.ofBits_zero_f32

/-- The copy to the output tile keeps entry `(r, d)` at `(0, r, d)`. -/
theorem copy_apply (v : Vec Ideal S512x1024 .f32) (u : Fin 1) (r : Fin 512) (d : Fin 1024) :
    k0_pay3 (F := Ideal) v (ix3 u r d) = v (ix2 r d) := by
  unfold k0_pay3
  exact shapeCast_ab_1ab_apply v _ u r d

end Cert.KernelIdeal.Tile

end
-- ==== Proof.KernelFold.lean ====
/-
  The tiled kernel computes the layer.

  The grid has 8 · 4 · 11 = 352 steps, hidden tile innermost: step `t` works on expert `t / 44`, token tile `t / 11 % 4`
  and hidden tile `t % 11`. Over the eleven steps of one (expert, token tile) pair the accumulator runs through
  `0 + a₀`, `(0 + a₀) + a₁`, …, where `aₛ` is, entry by entry, the sum of the 256 hidden units of hidden tile `s`:
  so after the eleventh step it holds `0 + Σ_{s < 11} aₛ`, and that step copies it into the output tile, the only
  write-back of the pair. A tile of an array is a piece of it — entry `(r, k)` of the token tile is `x[e, 512 b + r, k]`,
  hidden unit `j` of hidden tile `s` is unit `256 s + j` — so `aₛ` is the layer's own sum restricted to the units
  `256 s … 256 s + 255`, the eleven of them make the whole sum over 2816 units (addition on the extended reals
  commutes and associates; `0 + z = z`), and the 32 output tiles tile the result array. Nothing here needs the inputs
  finite.
-/
import proofs.«101023_j32822140076135_1_alg».proof.Defs
import proofs.«101023_j32822140076135_1_alg».proof.Proof.Gen.KernelIdeal.Value
import proofs.«101023_j32822140076135_1_alg».proof.Proof.KernelPieces
import proofs.«101023_j32822140076135_1_alg».proof.Proof.KernelTile
import proofs.«101023_j32822140076135_1_alg».proof.Proof.SwigluSpec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Value Cert.Swiglu

variable (m : (ℓ : Loc nD τ sig) → Buf (Elt Ideal) ℓ) (ρ : Dev nD → PrngReg)

theorem gridN : cfg0.N = 352 := N_0

/-- The four tiles a grid step reads. -/
abbrev xTile (c : Dev nD) (t : Fin cfg0.N) : Vec Ideal S1x512x1024 .f32 := iblk m c 0 t
abbrev gTile (c : Dev nD) (t : Fin cfg0.N) : Vec Ideal S1x1024x256 .f32 := iblk m c 1 t
abbrev uTile (c : Dev nD) (t : Fin cfg0.N) : Vec Ideal S1x1024x256 .f32 := iblk m c 2 t
abbrev dTile (c : Dev nD) (t : Fin cfg0.N) : Vec Ideal S1x256x1024 .f32 := iblk m c 3 t

/-- What step `n` adds to an entry of the accumulator: its hidden tile's 256 contributions (nothing past the grid). -/
def addend (c : Dev nD) (n : ℕ) (y : S512x1024.Idx) : EReal :=
  if h : n < cfg0.N then
    ∑ j : Fin 256, tileTerm (xTile m c ⟨n, h⟩) (gTile m c ⟨n, h⟩) (uTile m c ⟨n, h⟩) (dTile m c ⟨n, h⟩) (y 0) (y 1) j
  else 0

/-- Whatever the case, a step leaves the accumulator at the step's term: over zeros at a first hidden tile, over what
    the step before left elsewhere. -/
theorem step_eq (c : Dev nD) (n : ℕ) (hb : n < cfg0.N) (acc : Vec Ideal S512x1024 .f32) :
    scAt0_0 m c n hb acc
      = k0_pay2 (xTile m c ⟨n, hb⟩) (gTile m c ⟨n, hb⟩) (uTile m c ⟨n, hb⟩) (dTile m c ⟨n, hb⟩)
          (if n % 11 = 0 then k0_pay1 (F := Ideal) else acc) := by
  have hN : n < 352 := lt_of_lt_of_eq hb (gridN)
  unfold scAt0_0
  by_cases h0 : n % 11 = 0
  · have h1 : ¬n % 11 = 10 := by omega
    rw [dif_pos h0, dif_neg h1, if_pos h0]
    exact Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  · by_cases h1 : n % 11 = 10
    · rw [dif_neg h0, dif_pos h1, if_neg h0]
      exact Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
    · rw [dif_neg h0, dif_neg h1, if_neg h0]
      exact Pieces.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- The step's term at an entry: the entry of what it steps over, plus the step's addend. -/
theorem step_entry (c : Dev nD) (n : ℕ) (hb : n < cfg0.N) (v : Vec Ideal S512x1024 .f32) (y : S512x1024.Idx) :
    k0_pay2 (xTile m c ⟨n, hb⟩) (gTile m c ⟨n, hb⟩) (uTile m c ⟨n, hb⟩) (dTile m c ⟨n, hb⟩) v y = v y + addend m c n y := by
  obtain ⟨p, q, rfl⟩ : ∃ (p : Fin 512) (q : Fin 1024), y = ix2 p q := ⟨y 0, y 1, eq_ix2 y⟩
  rw [Tile.step_apply]
  unfold addend
  rw [dif_pos hb]

/-- THE ACCUMULATOR after step `t`: zero plus the addends of the steps since the run's first hidden tile. -/
theorem acc_after (c : Dev nD) (t : Fin cfg0.N) (y : S512x1024.Idx) :
    (outsAt0 m c t.val t.isLt).2 y = 0 + ∑ s ∈ Finset.range (t.val % 11 + 1), addend m c (11 * (t.val / 11) + s) y := by
  rw [soutsAt0_0_eq m c t]
  refine Pipeline.accAt_add_apply (fun n h => scAt0_0 m c n h (VS0_0.read (Elt Ideal) VS0_0.junk)) (scAt0_0 m c)
    (fun _ => 0) (addend m c) (11 * (t.val / 11)) 10 (fun h y => ?_) (fun n h acc y hlt hle => ?_) (t.val % 11) (by omega) _ y
  · show scAt0_0 m c _ h _ y = 0 + addend m c _ y
    rw [step_eq, if_pos (Nat.mul_mod_right _ _), step_entry, Tile.zeros_apply]
  · rw [step_eq, if_neg (by omega), step_entry]

/-- At a last hidden tile the output tile is the copy of the accumulator the same step leaves. -/
theorem out_tile (c : Dev nD) (t : Fin cfg0.N) (h0 : ¬t.val % 11 = 0) (h1 : t.val % 11 = 10) :
    (outsAt0 m c t.val t.isLt).1 = k0_pay3 (F := Ideal) (outsAt0 m c t.val t.isLt).2 := by
  rw [outsAt0_C m c t h0 h1]
  dsimp only
  exact (Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (congrArg (k0_pay3 (F := Ideal)) (Pieces.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm)

/-! ## The tiles are pieces of the whole arrays -/

/-- The printed index maps at grid step `t`, decided over the 352 steps: the expert is `t / 44`, the token tile
    `t / 11 % 4`, the hidden tile `t % 11`. -/
theorem tile_index : ∀ t : Fin cfg0.N,
    (win0_0.index t (0 : Fin 3) = t.val / 44 ∧ win0_0.index t (1 : Fin 3) = t.val / 11 % 4 ∧ win0_0.index t (2 : Fin 3) = 0)
    ∧ (win0_1.index t (0 : Fin 3) = t.val / 44 ∧ win0_1.index t (1 : Fin 3) = 0 ∧ win0_1.index t (2 : Fin 3) = t.val % 11)
    ∧ (win0_2.index t (0 : Fin 3) = t.val / 44 ∧ win0_2.index t (1 : Fin 3) = 0 ∧ win0_2.index t (2 : Fin 3) = t.val % 11)
    ∧ (win0_3.index t (0 : Fin 3) = t.val / 44 ∧ win0_3.index t (1 : Fin 3) = t.val % 11 ∧ win0_3.index t (2 : Fin 3) = 0)
    ∧ (win0_4.index t (0 : Fin 3) = t.val / 44 ∧ win0_4.index t (1 : Fin 3) = t.val / 11 % 4 ∧ win0_4.index t (2 : Fin 3) = 0) :=
  (by decide +kernel : ∀ t : Fin grid0.N, _)

/-- Entry `(r, k)` of the activation tile at a step of expert `e` and token tile `b` is `x[e, 512 b + r, k]`. -/
theorem xTile_apply (c : Dev nD) (t : Fin cfg0.N) (e : Fin 8) (b : Fin 4) (s : Fin 11) (ht : t.val = 44 * e.val + 11 * b.val + s.val)
    (u : Fin 1) (r : Fin 512) (k : Fin 1024) :
    xTile m c t (ix3 u r k) = (m ((c : Thread nD τ).loc main_arg0)) (ix3 e ⟨512 * b.val + r.val, by omega⟩ k) := by
  obtain ⟨⟨i0, i1, i2⟩, -⟩ := tile_index t
  unfold xTile iblk
  rw [View.read_apply]
  show V m c main_arg0 _ = _
  unfold V
  congr 1
  funext a
  apply Fin.ext
  match a with
  | ⟨0, _⟩ => show win0_0.index t (0 : Fin 3) * 1 + 1 * u.val = e.val; omega
  | ⟨1, _⟩ => show win0_0.index t (1 : Fin 3) * 512 + 1 * r.val = 512 * b.val + r.val; omega
  | ⟨2, _⟩ => show win0_0.index t (2 : Fin 3) * 1024 + 1 * k.val = k.val; omega

/-- Entry `(k, j)` of the gate tile at a step of expert `e` and hidden tile `s` is `w_gate[e, k, 256 s + j]`. -/
theorem gTile_apply (c : Dev nD) (t : Fin cfg0.N) (e : Fin 8) (b : Fin 4) (s : Fin 11) (ht : t.val = 44 * e.val + 11 * b.val + s.val)
    (u : Fin 1) (k : Fin 1024) (j : Fin 256) :
    gTile m c t (ix3 u k j) = (m ((c : Thread nD τ).loc main_arg1)) (ix3 e k ⟨256 * s.val + j.val, by omega⟩) := by
  obtain ⟨-, ⟨i0, i1, i2⟩, -⟩ := tile_index t
  unfold gTile iblk
  rw [View.read_apply]
  show V m c main_arg1 _ = _
  unfold V
  congr 1
  funext a
  apply Fin.ext
  match a with
  | ⟨0, _⟩ => show win0_1.index t (0 : Fin 3) * 1 + 1 * u.val = e.val; omega
  | ⟨1, _⟩ => show win0_1.index t (1 : Fin 3) * 1024 + 1 * k.val = k.val; omega
  | ⟨2, _⟩ => show win0_1.index t (2 : Fin 3) * 256 + 1 * j.val = 256 * s.val + j.val; omega

/-- The up tile likewise: `w_up[e, k, 256 s + j]`. -/
theorem uTile_apply (c : Dev nD) (t : Fin cfg0.N) (e : Fin 8) (b : Fin 4) (s : Fin 11) (ht : t.val = 44 * e.val + 11 * b.val + s.val)
    (u : Fin 1) (k : Fin 1024) (j : Fin 256) :
    uTile m c t (ix3 u k j) = (m ((c : Thread nD τ).loc main_arg2)) (ix3 e k ⟨256 * s.val + j.val, by omega⟩) := by
  obtain ⟨-, -, ⟨i0, i1, i2⟩, -⟩ := tile_index t
  unfold uTile iblk
  rw [View.read_apply]
  show V m c main_arg2 _ = _
  unfold V
  congr 1
  funext a
  apply Fin.ext
  match a with
  | ⟨0, _⟩ => show win0_2.index t (0 : Fin 3) * 1 + 1 * u.val = e.val; omega
  | ⟨1, _⟩ => show win0_2.index t (1 : Fin 3) * 1024 + 1 * k.val = k.val; omega
  | ⟨2, _⟩ => show win0_2.index t (2 : Fin 3) * 256 + 1 * j.val = 256 * s.val + j.val; omega

/-- Entry `(j, d)` of the down tile is `w_down[e, 256 s + j, d]`. -/
theorem dTile_apply (c : Dev nD) (t : Fin cfg0.N) (e : Fin 8) (b : Fin 4) (s : Fin 11) (ht : t.val = 44 * e.val + 11 * b.val + s.val)
    (u : Fin 1) (j : Fin 256) (d : Fin 1024) :
    dTile m c t (ix3 u j d) = (m ((c : Thread nD τ).loc main_arg3)) (ix3 e ⟨256 * s.val + j.val, by omega⟩ d) := by
  obtain ⟨-, -, -, ⟨i0, i1, i2⟩, -⟩ := tile_index t
  unfold dTile iblk
  rw [View.read_apply]
  show V m c main_arg3 _ = _
  unfold V
  congr 1
  funext a
  apply Fin.ext
  match a with
  | ⟨0, _⟩ => show win0_3.index t (0 : Fin 3) * 1 + 1 * u.val = e.val; omega
  | ⟨1, _⟩ => show win0_3.index t (1 : Fin 3) * 256 + 1 * j.val = 256 * s.val + j.val; omega
  | ⟨2, _⟩ => show win0_3.index t (2 : Fin 3) * 1024 + 1 * d.val = d.val; omega

/-- So a step's tile formula is the layer's own term: hidden unit `j` of tile `s` is hidden unit `256 s + j`, token
    `r` of tile `b` is token `512 b + r`. -/
theorem tileTerm_eq (c : Dev nD) (t : Fin cfg0.N) (e : Fin 8) (b : Fin 4) (s : Fin 11) (ht : t.val = 44 * e.val + 11 * b.val + s.val)
    (r : Fin 512) (d : Fin 1024) (j : Fin 256) :
    tileTerm (xTile m c t) (gTile m c t) (uTile m c t) (dTile m c t) r d j
      = term (m ((c : Thread nD τ).loc main_arg0)) (m ((c : Thread nD τ).loc main_arg1)) (m ((c : Thread nD τ).loc main_arg2)) (m ((c : Thread nD τ).loc main_arg3)) e ⟨512 * b.val + r.val, by omega⟩ d ⟨256 * s.val + j.val, by omega⟩ := by
  unfold tileTerm tileProj Cert.Swiglu.term Cert.Swiglu.hidden Cert.Swiglu.proj
  simp only [xTile_apply m c t e b s ht, gTile_apply m c t e b s ht, uTile_apply m c t e b s ht, dTile_apply m c t e b s ht]

/-! ## From tiles to the array -/

/-- What the result array holds after the run: the layer of the four argument arrays. -/
abbrev result (c : Dev nD) : Buf (Elt Ideal) ((c : Thread nD τ).loc main_v0) :=
  out (m ((c : Thread nD τ).loc main_arg0)) (m ((c : Thread nD τ).loc main_arg1)) (m ((c : Thread nD τ).loc main_arg2)) (m ((c : Thread nD τ).loc main_arg3))

/-- WHAT A LAST-HIDDEN-TILE STEP WRITES BACK is its tile of the layer: the accumulator then holds zero plus the eleven
    hidden tiles' addends of its expert and token tile, which together are the sum over all 2816 hidden units. -/
theorem flushed_eq (c : Dev nD) (t : Fin cfg0.N) (hf : (cfg0.win 4).flush t = true) :
    (dats m 0 c).flushed 4 t = ((cfg0.win 4).blk t).view.read (Elt Ideal) (result m c) := by
  have hN : t.val < 352 := lt_of_lt_of_eq t.isLt gridN
  have h1 : t.val % 11 = 10 := (flush0_4 t).mp hf
  have h0 : ¬t.val % 11 = 0 := by omega
  have h11 : t.val % 11 + 1 = 11 := by omega
  obtain ⟨-, -, -, -, ⟨i0, i1, i2⟩⟩ := tile_index t
  rw [flushed4, out_tile m c t h0 h1]
  funext y
  obtain ⟨u, r, d, rfl⟩ : ∃ (u : Fin 1) (r : Fin 512) (d : Fin 1024), y = ix3 u r d := ⟨y 0, y 1, y 2, eq_ix3 y⟩
  have hemb : ((cfg0.win 4).blk t).view.emb (ix3 u r d)
      = ix3 (⟨t.val / 44, by omega⟩ : Fin 8) (⟨512 * (t.val / 11 % 4) + r.val, by omega⟩ : Fin 2048) d := by
    funext a; apply Fin.ext
    match a with
    | ⟨0, _⟩ => show win0_4.index t (0 : Fin 3) * 1 + 1 * u.val = t.val / 44; omega
    | ⟨1, _⟩ => show win0_4.index t (1 : Fin 3) * 512 + 1 * r.val = 512 * (t.val / 11 % 4) + r.val; omega
    | ⟨2, _⟩ => show win0_4.index t (2 : Fin 3) * 1024 + 1 * d.val = d.val; omega
  show k0_pay3 (F := Ideal) (outsAt0 m c t.val t.isLt).2 (ix3 u r d) = result m c (((cfg0.win 4).blk t).view.emb (ix3 u r d))
  rw [hemb, Tile.copy_apply, acc_after, h11, zero_add, Finset.sum_range]
  show _ = ∑ i : Fin 2816, term (m ((c : Thread nD τ).loc main_arg0)) (m ((c : Thread nD τ).loc main_arg1)) (m ((c : Thread nD τ).loc main_arg2)) (m ((c : Thread nD τ).loc main_arg3)) (⟨t.val / 44, by omega⟩ : Fin 8) (⟨512 * (t.val / 11 % 4) + r.val, by omega⟩ : Fin 2048) d i
  rw [sum_hidden_tiles]
  refine Finset.sum_congr rfl fun s _ => ?_
  have hs : 11 * (t.val / 11) + s.val < cfg0.N :=
    lt_of_lt_of_eq (show 11 * (t.val / 11) + s.val < 352 by have := s.isLt; omega) gridN.symm
  unfold addend
  rw [dif_pos hs]
  refine Finset.sum_congr rfl fun j _ => ?_
  exact tileTerm_eq m c ⟨_, hs⟩ (⟨t.val / 44, by omega⟩ : Fin 8) (⟨t.val / 11 % 4, Nat.mod_lt _ (by decide)⟩ : Fin 4) s
    (by show 11 * (t.val / 11) + s.val = 44 * (t.val / 44) + 11 * (t.val / 11 % 4) + s.val; omega) r d j

/-- Every entry `(e, c, d)` of the result lies in the tile written back at the last hidden tile of expert `e` and token
    tile `c / 512`. -/
theorem cover (i : S8x2048x1024.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 1024 := (i 2).isLt
  have hlt : 44 * (i 0).val + 11 * ((i 1).val / 512) + 10 < cfg0.N := by rw [gridN]; omega
  obtain ⟨-, -, -, -, ⟨i0, i1, i2⟩⟩ := tile_index ⟨_, hlt⟩
  refine ⟨⟨_, hlt⟩, (flush0_4 _).mpr (by show (44 * (i 0).val + 11 * ((i 1).val / 512) + 10) % 11 = 10; omega), ?_⟩
  show i ∈ ((View.whole main_v0).slice (win0_4.rect ⟨_, hlt⟩)).set
  rw [View.set_slice_whole, Rect.mem_set_unit]
  intro a
  dsimp only at i0 i1 i2
  match a with
  | ⟨0, _⟩ => show win0_4.index ⟨_, hlt⟩ (0 : Fin 3) * 1 ≤ (i 0).val ∧ (i 0).val < win0_4.index ⟨_, hlt⟩ (0 : Fin 3) * 1 + 1; omega
  | ⟨1, _⟩ => show win0_4.index ⟨_, hlt⟩ (1 : Fin 3) * 512 ≤ (i 1).val ∧ (i 1).val < win0_4.index ⟨_, hlt⟩ (1 : Fin 3) * 512 + 512; omega
  | ⟨2, _⟩ => show win0_4.index ⟨_, hlt⟩ (2 : Fin 3) * 1024 ≤ (i 2).val ∧ (i 2).val < win0_4.index ⟨_, hlt⟩ (2 : Fin 3) * 1024 + 1024; omega

/-- So the result array ends holding the layer. -/
theorem final (c : Dev nD) : (dats m 0 c).arrAt 4 cfg0.N = result m c :=
  (dats m 0 c).arrAt_eq_of_cover 4 (result m c) (flushed_eq m c) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Fold

end
-- ==== Proof.RefRead.lean ====
/-
  The reference, read entry by entry.

  The reference program is three batched matrix products with an elementwise stage between them: the gate and up
  projections, `silu(gate) · up` with `silu g = g · (1 / (1 + e^(−g)))` spelt by negate, exponential, add and divide,
  and the down projection. Read at an output entry `(e, c, d)` it is the specification's `Cert.Swiglu.out`: the
  down projection's contraction is the sum over the 2816 hidden units, each factor of the hidden unit is a sum over
  the 1024 input features, and `1 / (1 + e^(−g))` is the logistic function as the extended reals define it
  (the constant `1.0` denotes the real one).
-/
import proofs.«101023_j32822140076135_1_alg».proof.Defs
import proofs.«101023_j32822140076135_1_alg».proof.Proof.Gen.ReferenceIdeal.Run
import proofs.«101023_j32822140076135_1_alg».proof.Proof.Gen.ReferenceIdeal.Read
import proofs.«101023_j32822140076135_1_alg».proof.Proof.SwigluSpec
import Idealize.ShloMosaic.Lib.IdealHost

noncomputable section

open scoped BigOperators
open Idealize.ShloMosaic Idealize.ShloMosaic.ValueIdx

namespace Cert.ReferenceIdeal.RefValue

open Cert.ReferenceIdeal Cert.ReferenceIdeal.Read Cert.Swiglu

/-! The operand entries each product reads, by coordinates: hidden unit `i` of token `(e, c)` reads row `(e, c, ·)` of
    the activations and column `(e, ·, i)` of a weight; output feature `d` reads hidden row `(e, c, ·)` and column
    `(e, ·, d)` of the down weights. -/

theorem gate_lhs (o : S8x2048x1024.Idx) (i : Fin 2816) (k : Fin 1024) :
    lidx_main_v0 (lidx_main_v4 o i) k = ix3 (o 0) (o 1) k :=
  funext fun a => by match a with | ⟨0, _⟩ => rfl | ⟨1, _⟩ => rfl | ⟨2, _⟩ => rfl
theorem gate_rhs (o : S8x2048x1024.Idx) (i : Fin 2816) (k : Fin 1024) :
    ridx_main_v0 (lidx_main_v4 o i) k = ix3 (o 0) k i :=
  funext fun a => by match a with | ⟨0, _⟩ => rfl | ⟨1, _⟩ => rfl | ⟨2, _⟩ => rfl
theorem up_lhs (o : S8x2048x1024.Idx) (i : Fin 2816) (k : Fin 1024) :
    lidx_main_v1 (lidx_main_v4 o i) k = ix3 (o 0) (o 1) k :=
  funext fun a => by match a with | ⟨0, _⟩ => rfl | ⟨1, _⟩ => rfl | ⟨2, _⟩ => rfl
theorem up_rhs (o : S8x2048x1024.Idx) (i : Fin 2816) (k : Fin 1024) :
    ridx_main_v1 (lidx_main_v4 o i) k = ix3 (o 0) k i :=
  funext fun a => by match a with | ⟨0, _⟩ => rfl | ⟨1, _⟩ => rfl | ⟨2, _⟩ => rfl
theorem down_rhs (o : S8x2048x1024.Idx) (i : Fin 2816) :
    ridx_main_v4 o i = ix3 (o 0) i (o 2) :=
  funext fun a => by match a with | ⟨0, _⟩ => rfl | ⟨1, _⟩ => rfl | ⟨2, _⟩ => rfl

/-- The reference's result array is the specification's layer of its four argument arrays. -/
theorem ref_eq (x : S8x2048x1024.Idx → EReal) (wg wu : S8x1024x2816.Idx → EReal) (wd : S8x2816x1024.Idx → EReal) :
    val_main_v4 (F := Ideal) x wg wu wd = out x wg wu wd := by
  funext o
  rw [val_main_v4_apply]
  unfold out
  refine Finset.sum_congr rfl fun i _ => ?_
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, val_main_v0_apply, val_main_v1_apply]
  simp only [gate_lhs, gate_rhs, up_lhs, up_rhs, down_rhs, Ideal.mulf_def, Ideal.addf_def, Ideal.hostDivf_def,
    Ideal.hostUnary_exp_def, Ideal.hostNegf_def, Ideal.negf_def, Ideal.ofBits_def, Ideal.ofBits_one_f32]
  unfold Cert.Swiglu.term Cert.Swiglu.hidden Cert.Swiglu.proj Ideal.logistic
  rfl

end Cert.ReferenceIdeal.RefValue

end
-- ==== Proof.lean ====
/-
  A gated expert layer, tiled, against its plain formula.

  For 8 experts with 2048 tokens each, the layer is `out = (silu(x·W_gate) ⊙ (x·W_up))·W_down` per expert, with
  `silu g = g · logistic g`. The kernel evaluates it tile by tile — 512 tokens by 256 hidden units at a time, the eleven
  hidden tiles of a token tile accumulated in a scratch buffer that is zeroed at the first and copied out at the last
  —, its operands narrowed to bf16 before each product; the reference is three whole batched products with the
  logistic spelt `1 / (1 + e^(−g))`. Read over the extended reals the narrowing is the identity, the logistic and its
  spelling are one function, and the only difference left is the order of summation over the 2816 hidden units: by
  tiles of 256 in the kernel, all at once in the reference. Addition on the extended reals commutes and associates, so
  the two results are equal entry by entry, for every input (the finiteness of the inputs is not used).

  Proof/SwigluSpec.lean states the layer and the regrouping of its sum; Proof/RefRead.lean reads the reference's run
  as the layer; Proof/KernelPieces.lean and Proof/KernelTile.lean read one grid step; Proof/KernelFold.lean folds the
  steps and assembles the result array. The word-level kernel and the idealized one run by their generated frames;
  the idealization rewrote nothing.
-/
import proofs.«101023_j32822140076135_1_alg».proof.Defs
import proofs.«101023_j32822140076135_1_alg».proof.Proof.Gen.Kernel
import proofs.«101023_j32822140076135_1_alg».proof.Proof.Gen.Kernel.Skeleton
import proofs.«101023_j32822140076135_1_alg».proof.Proof.Gen.Kernel.Launch
import proofs.«101023_j32822140076135_1_alg».proof.Proof.Gen.Kernel.Points
import proofs.«101023_j32822140076135_1_alg».proof.Proof.Gen.Kernel.Frame
import proofs.«101023_j32822140076135_1_alg».proof.Proof.Gen.KernelIdeal
import proofs.«101023_j32822140076135_1_alg».proof.Proof.Gen.KernelIdeal.Skeleton
import proofs.«101023_j32822140076135_1_alg».proof.Proof.Gen.KernelIdeal.Launch
import proofs.«101023_j32822140076135_1_alg».proof.Proof.Gen.KernelIdeal.Points
import proofs.«101023_j32822140076135_1_alg».proof.Proof.Gen.KernelIdeal.Frame
import proofs.«101023_j32822140076135_1_alg».proof.Proof.Gen.ReferenceIdeal
import proofs.«101023_j32822140076135_1_alg».proof.Proof.Gen.Pre_finite_inputs
import proofs.«101023_j32822140076135_1_alg».proof.Proof.KernelFold
import proofs.«101023_j32822140076135_1_alg».proof.Proof.RefRead
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their arguments, which agree. -/
theorem algebraic : Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
